-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S100000x128 : Shape := ⟨2, ![100000, 128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : IVec S64 32) (main_arg1 : IVec S64 32) (main_arg2 : FVec F S100000x128 .f32) (main_arg3 : FVec F S16x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S64 : Shape := ⟨1, ![64]⟩
abbrev S100000x128 : Shape := ⟨2, ![100000, 128]⟩
abbrev S16x128 : Shape := ⟨2, ![16, 128]⟩
abbrev S_ : Shape := ⟨0, ![]⟩
abbrev S64x1 : Shape := ⟨2, ![64, 1]⟩
abbrev S64x128 : Shape := ⟨2, ![64, 128]⟩
abbrev S1x128 : Shape := ⟨2, ![1, 128]⟩
abbrev S128 : Shape := ⟨1, ![128]⟩
abbrev S64x16384 : Shape := ⟨2, ![64, 16384]⟩
abbrev S256x128 : Shape := ⟨2, ![256, 128]⟩
abbrev S64x256 : Shape := ⟨2, ![64, 256]⟩
abbrev S128x256 : Shape := ⟨2, ![128, 256]⟩
abbrev S64x1x128 : Shape := ⟨3, ![64, 1, 128]⟩
abbrev S1x256x128 : Shape := ⟨3, ![1, 256, 128]⟩
abbrev S64x256x128 : Shape := ⟨3, ![64, 256, 128]⟩

abbrev nBuf : Space → Nat
  | .hbm => 47
  | .vmem => 6
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S100000x128, .f32⟩
  | .hbm, ⟨3, _⟩ => ⟨S16x128, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x128, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128, .f32⟩
  | .hbm, ⟨22, _⟩ => ⟨S1x128, .f32⟩
  | .hbm, ⟨23, _⟩ => ⟨S128, .f32⟩
  | .hbm, ⟨24, _⟩ => ⟨S64x128, .f32⟩
  | .hbm, ⟨25, _⟩ => ⟨S_, .f32⟩
  | .hbm, ⟨26, _⟩ => ⟨S64, .f32⟩
  | .hbm, ⟨27, _⟩ => ⟨S1x128, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x128, .f32⟩
  | .hbm, ⟨44, _⟩ => ⟨S64x128, .f32⟩
  | .hbm, ⟨45, _⟩ => ⟨S64x128, .f32⟩
  | .hbm, ⟨46, _⟩ => ⟨S64x16384, .f32⟩
  | .local _ .vmem, ⟨0, _⟩ => ⟨S64x128, .f32⟩
  | .local _ .vmem, ⟨1, _⟩ => ⟨S64x128, .f32⟩
  | .local _ .vmem, ⟨2, _⟩ => ⟨S256x128, .f32⟩
  | .local _ .vmem, ⟨3, _⟩ => ⟨S256x128, .f32⟩
  | .local _ .vmem, ⟨4, _⟩ => ⟨S64x256, .f32⟩
  | .local _ .vmem, ⟨5, _⟩ => ⟨S64x256, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  slices_S16x128_S1x128_15_0 : S16x128.Slices ![15, 0] S1x128
  shapeCasts_S1x128_S128 : S1x128.ShapeCasts S128
  reducesTo_S64x128_S64_d1 : S64x128.ReducesTo [1] S64
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  transposes_S256x128_p1_0_S128x256 : S256x128.Transposes [1, 0] S128x256
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  reduces_S64x256x128_S64x256 : S64x256x128.Reduces [2] S64x256
  inb_S64x256_S64x256_0_0 : ∀ a, (![0, 0] : Fin 2 → Nat) a + S64x256.size a ≤ S64x256.size a
  h_S64x256 : 0 < S64x256.numel
  gather_S100000x128_S64x1_S64x128_1_0_n_n_0_1_1128_wf : GatherDims.WF S100000x128 S64x1 S64x128 [1] [0] [] [0] [] 1 ![1, 128]
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x128.size a < S100000x128.size a
  hwx0_2 : ∀ i : grid0.Coords, EltTy.bits .f32 = 32 ∨ (Rect.unit (s := S100000x128) (fun a => cc0_transform_2 i a * S256x128.size a) (fun a => (Pipeline.Clip.of (cc0_transform_2 i a) (S256x128.size a) (S100000x128.size a)).extent (S256x128.size a)) fun a => Pipeline.Clip.inb (Pipeline.Clip.ok_of (hstart0_2 i a))).WholeWords (EltTy.packing .f32)
  hwxs0_2 : ∀ i : grid0.Coords, EltTy.bits .f32 = 32 ∨ (Rect.unit (s := S256x128) (fun _ => 0) (fun a => (Pipeline.Clip.of (cc0_transform_2 i a) (S256x128.size a) (S100000x128.size a)).extent (S256x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x16384.size a
  hwx0_3 : ∀ i : grid0.Coords, EltTy.bits .f32 = 32 ∨ (Rect.block (s := S64x16384) S64x256.size (cc0_transform_3 i) (hinb0_3 i)).WholeWords (EltTy.packing .f32)

variable [Facts₀]

def gather_S100000x128_S64x1_S64x128_1_0_n_n_0_1_1128 : GatherDims S100000x128 S64x1 S64x128 where
  offsetDims := [1]
  collapsedSliceDims := [0]
  operandBatchingDims := []
  startIndicesBatchingDims := []
  startIndexMap := [0]
  indexVectorDim := 1
  sliceSizes := ![1, 128]
  wf := gather_S100000x128_S64x1_S64x128_1_0_n_n_0_1_1128_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_v6) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S256x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v34) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64 : Shape := ⟨1, ![64]⟩
abbrev S100000x128 : Shape := ⟨2, ![100000, 128]⟩
abbrev S16x128 : Shape := ⟨2, ![16, 128]⟩
abbrev S_ : Shape := ⟨0, ![]⟩
abbrev S64x1 : Shape := ⟨2, ![64, 1]⟩
abbrev S64x128 : Shape := ⟨2, ![64, 128]⟩
abbrev S1x128 : Shape := ⟨2, ![1, 128]⟩
abbrev S128 : Shape := ⟨1, ![128]⟩
abbrev S16384x128 : Shape := ⟨2, ![16384, 128]⟩
abbrev S64x16384 : Shape := ⟨2, ![64, 16384]⟩
abbrev S64x1x128 : Shape := ⟨3, ![64, 1, 128]⟩
abbrev S1x1x128 : Shape := ⟨3, ![1, 1, 128]⟩
abbrev S1x16384x128 : Shape := ⟨3, ![1, 16384, 128]⟩
abbrev S64x16384x128 : Shape := ⟨3, ![64, 16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S100000x128, .f32⟩
  | .hbm, ⟨3, _⟩ => ⟨S16x128, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x128, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128, .f32⟩
  | .hbm, ⟨22, _⟩ => ⟨S1x128, .f32⟩
  | .hbm, ⟨23, _⟩ => ⟨S128, .f32⟩
  | .hbm, ⟨24, _⟩ => ⟨S16384x128, .f32⟩
  | .hbm, ⟨25, _⟩ => ⟨S64x128, .f32⟩
  | .hbm, ⟨26, _⟩ => ⟨S_, .f32⟩
  | .hbm, ⟨27, _⟩ => ⟨S64, .f32⟩
  | .hbm, ⟨28, _⟩ => ⟨S1x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64x16384, .f32⟩
  | .hbm, ⟨45, _⟩ => ⟨S64x1x128, .f32⟩
  | .hbm, ⟨46, _⟩ => ⟨S1x1x128, .f32⟩
  | .hbm, ⟨47, _⟩ => ⟨S64x1x128, .f32⟩
  | .hbm, ⟨48, _⟩ => ⟨S64x1x128, .f32⟩
  | .hbm, ⟨49, _⟩ => ⟨S1x16384x128, .f32⟩
  | .hbm, ⟨50, _⟩ => ⟨S64x16384x128, .f32⟩
  | .hbm, ⟨51, _⟩ => ⟨S64x16384x128, .f32⟩
  | .hbm, ⟨52, _⟩ => ⟨S64x16384x128, .f32⟩
  | .hbm, ⟨53, _⟩ => ⟨S64x16384x128, .f32⟩
  | .hbm, ⟨54, _⟩ => ⟨S_, .f32⟩
  | .hbm, ⟨55, _⟩ => ⟨S64x16384, .f32⟩
  | .hbm, ⟨56, _⟩ => ⟨S64x16384, .f32⟩
  | .hbm, ⟨57, _⟩ => ⟨S64x16384, .f32⟩
  | .hbm, ⟨58, _⟩ => ⟨S64x16384, .f32⟩
  | .hbm, ⟨59, _⟩ => ⟨S_, .f32⟩
  | .hbm, ⟨60, _⟩ => ⟨S64x16384, .f32⟩
  | .hbm, ⟨61, _⟩ => ⟨S64x16384, .f32⟩
  | .hbm, ⟨62, _⟩ => ⟨S_, .f32⟩
  | .hbm, ⟨63, _⟩ => ⟨S64x16384, .f32⟩
  | .hbm, ⟨64, _⟩ => ⟨S64x16384, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  slices_S16x128_S1x128_15_0 : S16x128.Slices ![15, 0] S1x128
  shapeCasts_S1x128_S128 : S1x128.ShapeCasts S128
  slices_S100000x128_S16384x128_0_0 : S100000x128.Slices ![0, 0] S16384x128
  reducesTo_S64x128_S64_d1 : S64x128.ReducesTo [1] S64
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x128_S64x1x128_0_2 : S64x128.BroadcastsInDim S64x1x128 (![0, 2] : Fin 2 → Fin S64x1x128.rank)
  bcast_S128_S1x1x128_2 : S128.BroadcastsInDim S1x1x128 (![2] : Fin 1 → Fin S1x1x128.rank)
  bcast_S1x1x128_S64x1x128_0_1_2 : S1x1x128.BroadcastsInDim S64x1x128 (![0, 1, 2] : Fin 3 → Fin S64x1x128.rank)
  bcast_S16384x128_S1x16384x128_1_2 : S16384x128.BroadcastsInDim S1x16384x128 (![1, 2] : Fin 2 → Fin S1x16384x128.rank)
  bcast_S64x1x128_S64x16384x128_0_1_2 : S64x1x128.BroadcastsInDim S64x16384x128 (![0, 1, 2] : Fin 3 → Fin S64x16384x128.rank)
  bcast_S1x16384x128_S64x16384x128_0_1_2 : S1x16384x128.BroadcastsInDim S64x16384x128 (![0, 1, 2] : Fin 3 → Fin S64x16384x128.rank)
  reducesTo_S64x16384x128_S64x16384_d2 : S64x16384x128.ReducesTo [2] S64x16384
  bcast_S_S64x16384 : S_.BroadcastsInDim S64x16384 (![] : Fin 0 → Fin S64x16384.rank)
  gather_S100000x128_S64x1_S64x128_1_0_n_n_0_1_1128_wf : GatherDims.WF S100000x128 S64x1 S64x128 [1] [0] [] [0] [] 1 ![1, 128]
  dot_S64x128_S16384x128_S64x16384_1_1_0_0_n_n_wf : DotDims.WF S64x128 S16384x128 S64x16384 [1] [1] [0] [0] [] []

variable [Facts₀]

def gather_S100000x128_S64x1_S64x128_1_0_n_n_0_1_1128 : GatherDims S100000x128 S64x1 S64x128 where
  offsetDims := [1]
  collapsedSliceDims := [0]
  operandBatchingDims := []
  startIndicesBatchingDims := []
  startIndexMap := [0]
  indexVectorDim := 1
  sliceSizes := ![1, 128]
  wf := gather_S100000x128_S64x1_S64x128_1_0_n_n_0_1_1128_wf
def dot_S64x128_S16384x128_S64x16384_1_1_0_0_n_n : DotDims S64x128 S16384x128 S64x16384 where
  lhsContracting := [1]
  rhsContracting := [1]
  lhsNonContracting := [0]
  rhsNonContracting := [0]
  lhsBatch := []
  rhsBatch := []
  wf := dot_S64x128_S16384x128_S64x16384_1_1_0_0_n_n_wf

class Facts : Prop extends Facts₀ where

variable [Facts]
-- ==== Proof.BodyBits.lean ====
import proofs.«148714_j35450660061923_1_alg».proof.Proof.Gen.Kernel.Skeleton
import proofs.«148714_j35450660061923_1_alg».proof.Proof.Gen.Kernel.Frame
/-
  The ranking kernel's body, the pipeline's proof data and the frame run, for every float family `F`.

  The pallas_call walks 64 grid points. At point `t` the body sees the gathered user rows `u` (64 × 128, the same
  block at every point), the rows `u + buy` (64 × 128, likewise), and rows `256·t … 256·t + 255` of the entity
  table (256 × 128), and stores the 64 × 256 block of logistic scores of every user row against every one of
  those table rows. The entity table has 100000 rows, not a multiple of 256, so its window is declared as one
  whose blocks may be cut at the table's end; the 64 blocks the grid visits end at row 16383 and none is cut,
  which is decided once over the grid (`uncut`) and makes the fetched buffer the plain block (`tblk`).
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rU : Rect S64x128 := Rect.unit (s := S64x128) ![0, 0] S64x128.size inb_S64x128_S64x128_0_0
abbrev rT : Rect S256x128 := Rect.unit (s := S256x128) ![0, 0] S256x128.size inb_S256x128_S256x128_0_0
abbrev rO : Rect S64x256 := Rect.unit (s := S64x256) ![0, 0] S64x256.size inb_S64x256_S64x256_0_0

/-- What the body leaves in the score buffer from what the three input buffers hold: its one whole store of the
    payload over the three whole loads. -/
def scoreBlk (u upb : Vec F S64x128 .f32) (tb : Vec F S256x128 .f32) : Vec F S64x256 .f32 :=
  View.canon [⟨rO, k0_pay1 (View.ld u rU) (View.ld upb rU) (View.ld tb rT)⟩]

/-- The one store covers the score buffer. -/
theorem cover_rO (p : Vec F S64x256 .f32) (y : S64x256.Idx) :
    ∃ pc ∈ ([⟨rO, p⟩] : List (View.Piece (Elt F) S64x256 .f32)), y ∈ pc.1.set :=
  View.cover_of_tiled [⟨rO, p⟩] S64x256.size (by rfl) y

/-! ## The body's triple -/

set_option maxHeartbeats 1000000 in
/-- The body on whole buffers: the three inputs at `u`, `upb`, `tb`, the score buffer at anything; it runs to the
    continuation with the inputs as they were and the score buffer at `scoreBlk u upb tb` (the load of the score
    buffer before the store is dead). -/
theorem sound_kernel (c : Dev nD) (E : Set ℕ) (i : grid0.Coords)
    (arg1 : Memref sig .tc .vmem S64x128 .f32) (harg1 : arg1.IsWhole) (arg2 : Memref sig .tc .vmem S64x128 .f32) (harg2 : arg2.IsWhole)
    (arg3 : Memref sig .tc .vmem S256x128 .f32) (harg3 : arg3.IsWhole) (arg4 : Memref sig .tc .vmem S64x256 .f32) (harg4 : arg4.IsWhole)
    (u upb : Vec F S64x128 .f32) (tb : Vec F S256x128 .f32) (K : PUnit → sProp 𝕄) :
    iprop(owns (c : Thread nD τ) arg1 fullShare u ∗ owns (c : Thread nD τ) arg2 fullShare upb ∗ owns (c : Thread nD τ) arg3 fullShare tb
        ∗ (∃ d, owns (c : Thread nD τ) arg4 fullShare d)
        ∗ (iprop(owns (c : Thread nD τ) arg1 fullShare u ∗ owns (c : Thread nD τ) arg2 fullShare upb ∗ owns (c : Thread nD τ) arg3 fullShare tb
            ∗ owns (c : Thread nD τ) arg4 fullShare (scoreBlk u upb tb)) -∗ K ⟨⟩))
      ⊢ wp frame (wpE (defs₀ (F := F)) Variants.none c none) E (cc0__ranking_kernel i arg1 harg1 arg2 harg2 arg3 harg3 arg4 harg4) K := by
  simp only [cc0__ranking_kernel_eq_skeleton]; unfold cc0__ranking_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_rO _)

/-! ## The pipeline's proof data -/

variable (m : (ℓ : Loc nD τ sig) → Buf (Elt F) ℓ) (ρ : Dev nD → PrngReg)

/-- No block of the entity table that the grid visits reaches past the table's end. -/
theorem uncut : ∀ (t : Fin cfg0.N) (a : Fin 2), (cfg0.win 2).clip (cfg0.grid.coords t) a = none :=
  (by decide +kernel : ∀ (t : Fin grid0.N) (a : Fin 2), win0_2.clip (grid0.coords t) a = none)

/-- The entity table's buffer at point `t`: its 256 rows there, laid over a filler no index keeps (the block is
    not cut). -/
def tblk (c : Dev nD) (t : Fin cfg0.N) : S256x128.Idx → Elt F .f32 :=
  win0_2.fill (grid0.coords t) (fun _ => Scalar.ofBits .f32 0#32) (iblk m c 2 t)

/-- The proof data on core `c`: the arrays as the region finds them; after the body at point `t` each input buffer
    at what it held and the score buffer at `scoreBlk` of them; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tblk m c t
    | ⟨3, _⟩ => scoreBlk (iblk m c 0 t) (iblk m c 1 t) (tblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tblk m c t := by dsimp only [dats]
theorem after0_3 (c : Dev nD) (t : Fin cfg0.N) :
    (dats m 0 c).after 3 t = scoreBlk (iblk m c 0 t) (iblk m c 1 t) (tblk m c t) := by dsimp only [dats]

/-- The two 64 × 128 inputs are found at their one block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The entity table's buffer is fetched at every point, and an uncut fetch keeps nothing of what the buffer
    held. -/
theorem before0_2 (c : Dev nD) (t : Fin cfg0.N) (d) : (dats m 0 c).before 2 t d = tblk m c t := by
  unfold Dat.before
  rw [if_pos (fetch0_2 t)]
  unfold Dat.fetched Dat.blockOf tblk iblk
  rw [A_eq]
  exact Pipeline.fill_of_clip_none (cfg := cfg0) 2 _ (uncut t) _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (tblk m c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the proof data computes and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends and the four argument arrays are what they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
import proofs.«148714_j35450660061923_1_alg».proof.Proof.Gen.KernelIdeal.Skeleton
import proofs.«148714_j35450660061923_1_alg».proof.Proof.Gen.KernelIdeal.Frame
/-
  The ranking kernel's body, the pipeline's proof data and the frame run, for every float family `F`.

  The pallas_call walks 64 grid points. At point `t` the body sees the gathered user rows `u` (64 × 128, the same
  block at every point), the rows `u + buy` (64 × 128, likewise), and rows `256·t … 256·t + 255` of the entity
  table (256 × 128), and stores the 64 × 256 block of logistic scores of every user row against every one of
  those table rows. The entity table has 100000 rows, not a multiple of 256, so its window is declared as one
  whose blocks may be cut at the table's end; the 64 blocks the grid visits end at row 16383 and none is cut,
  which is decided once over the grid (`uncut`) and makes the fetched buffer the plain block (`tblk`).
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rU : Rect S64x128 := Rect.unit (s := S64x128) ![0, 0] S64x128.size inb_S64x128_S64x128_0_0
abbrev rT : Rect S256x128 := Rect.unit (s := S256x128) ![0, 0] S256x128.size inb_S256x128_S256x128_0_0
abbrev rO : Rect S64x256 := Rect.unit (s := S64x256) ![0, 0] S64x256.size inb_S64x256_S64x256_0_0

/-- What the body leaves in the score buffer from what the three input buffers hold: its one whole store of the
    payload over the three whole loads. -/
def scoreBlk (u upb : Vec F S64x128 .f32) (tb : Vec F S256x128 .f32) : Vec F S64x256 .f32 :=
  View.canon [⟨rO, k0_pay1 (View.ld u rU) (View.ld upb rU) (View.ld tb rT)⟩]

/-- The one store covers the score buffer. -/
theorem cover_rO (p : Vec F S64x256 .f32) (y : S64x256.Idx) :
    ∃ pc ∈ ([⟨rO, p⟩] : List (View.Piece (Elt F) S64x256 .f32)), y ∈ pc.1.set :=
  View.cover_of_tiled [⟨rO, p⟩] S64x256.size (by rfl) y

/-! ## The body's triple -/

set_option maxHeartbeats 1000000 in
/-- The body on whole buffers: the three inputs at `u`, `upb`, `tb`, the score buffer at anything; it runs to the
    continuation with the inputs as they were and the score buffer at `scoreBlk u upb tb` (the load of the score
    buffer before the store is dead). -/
theorem sound_kernel (c : Dev nD) (E : Set ℕ) (i : grid0.Coords)
    (arg1 : Memref sig .tc .vmem S64x128 .f32) (harg1 : arg1.IsWhole) (arg2 : Memref sig .tc .vmem S64x128 .f32) (harg2 : arg2.IsWhole)
    (arg3 : Memref sig .tc .vmem S256x128 .f32) (harg3 : arg3.IsWhole) (arg4 : Memref sig .tc .vmem S64x256 .f32) (harg4 : arg4.IsWhole)
    (u upb : Vec F S64x128 .f32) (tb : Vec F S256x128 .f32) (K : PUnit → sProp 𝕄) :
    iprop(owns (c : Thread nD τ) arg1 fullShare u ∗ owns (c : Thread nD τ) arg2 fullShare upb ∗ owns (c : Thread nD τ) arg3 fullShare tb
        ∗ (∃ d, owns (c : Thread nD τ) arg4 fullShare d)
        ∗ (iprop(owns (c : Thread nD τ) arg1 fullShare u ∗ owns (c : Thread nD τ) arg2 fullShare upb ∗ owns (c : Thread nD τ) arg3 fullShare tb
            ∗ owns (c : Thread nD τ) arg4 fullShare (scoreBlk u upb tb)) -∗ K ⟨⟩))
      ⊢ wp frame (wpE (defs₀ (F := F)) Variants.none c none) E (cc0__ranking_kernel i arg1 harg1 arg2 harg2 arg3 harg3 arg4 harg4) K := by
  simp only [cc0__ranking_kernel_eq_skeleton]; unfold cc0__ranking_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_rO _)

/-! ## The pipeline's proof data -/

variable (m : (ℓ : Loc nD τ sig) → Buf (Elt F) ℓ) (ρ : Dev nD → PrngReg)

/-- No block of the entity table that the grid visits reaches past the table's end. -/
theorem uncut : ∀ (t : Fin cfg0.N) (a : Fin 2), (cfg0.win 2).clip (cfg0.grid.coords t) a = none :=
  (by decide +kernel : ∀ (t : Fin grid0.N) (a : Fin 2), win0_2.clip (grid0.coords t) a = none)

/-- The entity table's buffer at point `t`: its 256 rows there, laid over a filler no index keeps (the block is
    not cut). -/
def tblk (c : Dev nD) (t : Fin cfg0.N) : S256x128.Idx → Elt F .f32 :=
  win0_2.fill (grid0.coords t) (fun _ => Scalar.ofBits .f32 0#32) (iblk m c 2 t)

/-- The proof data on core `c`: the arrays as the region finds them; after the body at point `t` each input buffer
    at what it held and the score buffer at `scoreBlk` of them; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tblk m c t
    | ⟨3, _⟩ => scoreBlk (iblk m c 0 t) (iblk m c 1 t) (tblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tblk m c t := by dsimp only [dats]
theorem after0_3 (c : Dev nD) (t : Fin cfg0.N) :
    (dats m 0 c).after 3 t = scoreBlk (iblk m c 0 t) (iblk m c 1 t) (tblk m c t) := by dsimp only [dats]

/-- The two 64 × 128 inputs are found at their one block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The entity table's buffer is fetched at every point, and an uncut fetch keeps nothing of what the buffer
    held. -/
theorem before0_2 (c : Dev nD) (t : Fin cfg0.N) (d) : (dats m 0 c).before 2 t d = tblk m c t := by
  unfold Dat.before
  rw [if_pos (fetch0_2 t)]
  unfold Dat.fetched Dat.blockOf tblk iblk
  rw [A_eq]
  exact Pipeline.fill_of_clip_none (cfg := cfg0) 2 _ (uncut t) _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (tblk m c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the proof data computes and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends and the four argument arrays are what they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.RankSpec.lean ====
import Idealize.ShloMosaic.PureOps.Ideal
import Idealize.ShloMosaic.Lib.ValueIdx
/-
  The quantity both programs compute for a pair (user, candidate item), over the extended reals: with `u` the user's
  embedding, `ub = u + buy` its translate by the "buy" relation's embedding and `e` the item's embedding (each of
  128 coordinates),

      score u ub e = logistic ( Σ_k |ub_k − e_k|  +  Σ_k u_k · e_k ),

  the L1 distance of the translated user to the item plus their inner product, through the logistic function
  `x ↦ 1 / (1 + e^(−x))` (with its limits 0 and 1 at the infinities). The absolute value is `max a (−a)`.

  `rankAll U B E` is the 64 × 16384 array of these scores: entry (b, i) scores row b of the gathered user rows `U`
  (translated by the one row `B`) against row i of the entity table `E`, whose first 16384 rows are the items.
-/

open scoped BigOperators

namespace Cert.RankSpec

open Idealize.ShloMosaic Idealize.ShloMosaic.ValueIdx

/-- The ranking score of one user against one item. -/
noncomputable def score (u ub e : Fin 128 → EReal) : EReal :=
  Ideal.logistic ((∑ k : Fin 128, max (ub k - e k) (-(ub k - e k))) + ∑ k : Fin 128, u k * e k)

/-- The entity table's row that item `i` is: the items are the table's first 16384 rows. -/
def itemRow (i : Fin 16384) : Fin 100000 := ⟨i.val, Nat.lt_trans i.isLt (by decide)⟩

/-- Every row of `U`, with `UB` its translated rows, against every item. -/
noncomputable def rankOf (U UB : (⟨2, ![64, 128]⟩ : Shape).Idx → EReal)
    (E : (⟨2, ![100000, 128]⟩ : Shape).Idx → EReal) : (⟨2, ![64, 16384]⟩ : Shape).Idx → EReal := fun j =>
  score (fun k => U (ix2 ⟨(j 0).val, idx2_lt0 j⟩ k)) (fun k => UB (ix2 ⟨(j 0).val, idx2_lt0 j⟩ k))
    (fun k => E (ix2 (itemRow ⟨(j 1).val, idx2_lt1 j⟩) k))

theorem rankOf_apply (U UB : (⟨2, ![64, 128]⟩ : Shape).Idx → EReal)
    (E : (⟨2, ![100000, 128]⟩ : Shape).Idx → EReal) (b : Fin 64) (i : Fin 16384) :
    rankOf U UB E (ix2 b i)
      = score (fun k => U (ix2 b k)) (fun k => UB (ix2 b k)) (fun k => E (ix2 (itemRow i) k)) := rfl

/-- Every user row, translated by the one row `B`, against every item. -/
noncomputable def rankAll (U : (⟨2, ![64, 128]⟩ : Shape).Idx → EReal) (B : (⟨1, ![128]⟩ : Shape).Idx → EReal)
    (E : (⟨2, ![100000, 128]⟩ : Shape).Idx → EReal) : (⟨2, ![64, 16384]⟩ : Shape).Idx → EReal :=
  rankOf U (fun j => U j + B (ix1 ⟨(j 1).val, idx2_lt1 j⟩)) E

theorem rankAll_apply (U : (⟨2, ![64, 128]⟩ : Shape).Idx → EReal) (B : (⟨1, ![128]⟩ : Shape).Idx → EReal)
    (E : (⟨2, ![100000, 128]⟩ : Shape).Idx → EReal) (b : Fin 64) (i : Fin 16384) :
    rankAll U B E (ix2 b i)
      = score (fun k => U (ix2 b k)) (fun k => U (ix2 b k) + B (ix1 k)) (fun k => E (ix2 (itemRow i) k)) := rfl

end Cert.RankSpec
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.RankPayload.lean ====
import proofs.«148714_j35450660061923_1_alg».proof.Proof.Gen.KernelIdeal.Skeleton
import proofs.«148714_j35450660061923_1_alg».proof.Proof.RankSpec
import proofs.«148714_j35450660061923_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
/-
  The kernel body's stored value, read at one entry, over the extended reals.

  The body holds the user rows `u` and the translated user rows `ub` (64 × 128 each) and a block `tb` of 256 item rows
  (256 × 128). Entry (b, q) of what it stores is the ranking score of user row b against item row q of the block:
  the lane sum over the last axis of |ub(b,·) − tb(q,·)| laid out as a 64 × 256 × 128 array, plus entry (b, q) of the
  product of `u` with the transpose of `tb`, through the logistic function. Rounding to bf16 on the way into the
  product is the identity on the extended reals.
-/

open scoped BigOperators

noncomputable section

namespace Cert.KernelIdeal.RankValue

open Cert.KernelIdeal Cert.KernelIdeal.Gen Idealize.ShloMosaic Idealize.ShloMosaic.ValueIdx

/-- The user-side operand of the difference: a 64 × 128 array given a unit middle axis and repeated along it reads,
    at (b, q, k), its entry (b, k). -/
theorem rowsAlongItems_apply (x : FVec Ideal S64x128 .f32) (b : Fin 64) (q : Fin 256) (k : Fin 128) :
    broadcastTo S64x256x128 (shapeCast S64x1x128 (shapeCast S64x128 x shapeCasts_S64x128_S64x128) shapeCasts_S64x128_S64x1x128)
        broadcasts_S64x1x128_S64x256x128 (ix3 b q k) = x (ix2 b k) := by
  refine (broadcastTo_apply _ broadcasts_S64x1x128_S64x256x128 (ix3 b q k) (ix3 b (0 : Fin 1) k) fun a => ?_).trans ?_
  · match a with
    | ⟨0, _⟩ => show b.val = if (64 : Nat) = 1 then 0 else b.val; rw [if_neg (by decide)]
    | ⟨1, _⟩ => show (0 : Nat) = if (1 : Nat) = 1 then 0 else q.val; rw [if_pos rfl]
    | ⟨2, _⟩ => show k.val = if (128 : Nat) = 1 then 0 else k.val; rw [if_neg (by decide)]
  · refine (shapeCast_apply _ shapeCasts_S64x128_S64x1x128 (ix3 b (0 : Fin 1) k) (ix2 b k) ?_).trans ?_
    · rw [Shape.rowMajor_val_three, Shape.rowMajor_val_two]
      show b.val * 128 + k.val = (b.val * 1 + 0) * 128 + k.val
      omega
    · exact congrFun (shapeCast_self x shapeCasts_S64x128_S64x128) (ix2 b k)

/-- The item-side operand of the difference: a 256 × 128 array given a unit leading axis and repeated along it
    reads, at (b, q, k), its entry (q, k). -/
theorem itemsAlongRows_apply (y : FVec Ideal S256x128 .f32) (b : Fin 64) (q : Fin 256) (k : Fin 128) :
    broadcastTo S64x256x128 (shapeCast S1x256x128 y shapeCasts_S256x128_S1x256x128)
        broadcasts_S1x256x128_S64x256x128 (ix3 b q k) = y (ix2 q k) := by
  refine (broadcastTo_apply _ broadcasts_S1x256x128_S64x256x128 (ix3 b q k) (ix3 (0 : Fin 1) q k) fun a => ?_).trans ?_
  · match a with
    | ⟨0, _⟩ => show (0 : Nat) = if (1 : Nat) = 1 then 0 else b.val; rw [if_pos rfl]
    | ⟨1, _⟩ => show q.val = if (256 : Nat) = 1 then 0 else q.val; rw [if_neg (by decide)]
    | ⟨2, _⟩ => show k.val = if (128 : Nat) = 1 then 0 else k.val; rw [if_neg (by decide)]
  · exact shapeCast_ab_1ab_apply y shapeCasts_S256x128_S1x256x128 (0 : Fin 1) q k

/-- The lane sum over the last axis of a 64 × 256 × 128 array, at (b, q), is the sum over k of its entries (b, q, k). -/
theorem laneSum_apply (x : FVec Ideal S64x256x128 .f32) (b : Fin 64) (q : Fin 256)
    (hφ : FKind.Formats .f32) (hacc : (0x00000000#32 : BitVec 32) = FKind.add.neutral .f32 hφ) :
    multiReduction .add [2] S64x256 x 0x00000000#32 reduces_S64x256x128_S64x256 hφ hacc (ix2 b q)
      = ∑ k : Fin 128, x (ix3 b q k) :=
  (Ideal.multiReduction_add_single x 0x00000000#32 reduces_S64x256x128_S64x256 hφ hacc (ix2 b q)).trans
    (Finset.sum_congr rfl fun k _ => congrArg x (funext fun a => Fin.ext (by
      match a with
      | ⟨0, _⟩ => rfl
      | ⟨1, _⟩ => rfl
      | ⟨2, _⟩ => rfl)))

/-- Entry (b, q) of the body's stored value is the ranking score of row b of `u` (translated: row b of `ub`) against
    row q of the item block `tb`. -/
theorem pay_apply (u ub : Vec Ideal S64x128 .f32) (tb : Vec Ideal S256x128 .f32) (b : Fin 64) (q : Fin 256) :
    k0_pay1 (F := Ideal) u ub tb (ix2 b q)
      = RankSpec.score (fun k => u (ix2 b k)) (fun k => ub (ix2 b k)) (fun k => tb (ix2 q k)) := by
  unfold k0_pay1 RankSpec.score
  dsimp only
  refine congrArg Ideal.logistic (congrArg₂ (· + ·) ?_ ?_)
  · -- the L1 distance: the lane sum, term by term
    refine (laneSum_apply _ b q _ _).trans (Finset.sum_congr rfl fun k _ => ?_)
    exact congrArg₂ (fun (a c : EReal) => max (a - c) (-(a - c))) (rowsAlongItems_apply ub b q k) (itemsAlongRows_apply tb b q k)
  · -- the inner product: the plain matrix product with the transposed block, term by term
    refine (Cert.Lib.PlainDot.matmul_zero_apply dot_S64x128_S128x256_S64x256_1_0_0_1_n_n rfl rfl rfl rfl rfl rfl none _ _ b q).trans
      (Finset.sum_congr rfl fun k _ => ?_)
    refine congrArg₂ (fun (a c : EReal) => a * c) (congrFun (shapeCast_self u shapeCasts_S64x128_S64x128) (ix2 b k)) ?_
    exact transpose_ix2_apply (α := EReal) (a := 256) (b := 128) (fun i => tb i) transposes_S256x128_p1_0_S128x256 k q

end Cert.KernelIdeal.RankValue

end
-- ==== Proof.HostValues.lean ====
import proofs.«148714_j35450660061923_1_alg».proof.Proof.Gen.KernelIdeal.Frame
import proofs.«148714_j35450660061923_1_alg».proof.Proof.Gen.ReferenceIdeal.Read
import Idealize.ShloMosaic.Lib.StableHlo.Run
/-
  What the kernel program's host operations leave in the three buffers the proof reads, as functions of the
  arguments — for every float family. Before the pallas_call the kernel program gathers the users' rows of the
  entity table, takes the "buy" row of the relation table, computes the 64 predictions of the small head, and adds
  the "buy" row to every user row. The reference begins with the same operations on the same arguments, so each of
  these buffers holds the reference's own stage function of the arguments: the gathered user rows, those rows
  translated by the "buy" row, and the predictions.
-/
set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The gathered user rows. -/
theorem users_eq (c : Dev nD) :
    (V m c main_v6 : S64x128.Idx → Elt F .f32)
      = Cert.ReferenceIdeal.Read.val_main_v6 (F := F) (m ((c : Thread nD τ).loc main_arg0)) (m ((c : Thread nD τ).loc main_arg2)) := by
  dsimp only [V, hostOps0]
  after_results_simp
  rfl

/-- The user rows translated by the "buy" row. -/
theorem usersPlusBuy_eq (c : Dev nD) :
    (V m c main_v33 : S64x128.Idx → Elt F .f32)
      = addf (Cert.ReferenceIdeal.Read.val_main_v6 (F := F) (m ((c : Thread nD τ).loc main_arg0)) (m ((c : Thread nD τ).loc main_arg2)))
          (Cert.ReferenceIdeal.Read.val_main_v20 (F := F) (m ((c : Thread nD τ).loc main_arg3))) := by
  dsimp only [V, hostOps0]
  after_results_simp
  rfl

/-- The predictions of the small head. -/
theorem predict_eq (c : Dev nD) :
    (V m c main_v30 : S64.Idx → Elt F .f32)
      = Cert.ReferenceIdeal.Read.val_main_v31 (F := F) (m ((c : Thread nD τ).loc main_arg0)) (m ((c : Thread nD τ).loc main_arg1))
          (m ((c : Thread nD τ).loc main_arg2)) (m ((c : Thread nD τ).loc main_arg3)) := by
  dsimp only [V, hostOps0]
  after_results_simp
  rfl

end Cert.KernelIdeal.HostValues

end
-- ==== Proof.RankKernel.lean ====
import proofs.«148714_j35450660061923_1_alg».proof.Proof.BodyIdeal
import proofs.«148714_j35450660061923_1_alg».proof.Proof.RankPayload
import proofs.«148714_j35450660061923_1_alg».proof.Proof.HostValues
import Idealize.ShloMosaic.Lib.Pipeline.Value
/-
  The kernel program's run, read: what its two results hold, over the extended reals.

  Grid point `t` writes back the 64 × 256 block of scores of the 64 user rows against table rows
  `256·t … 256·t + 255` into columns `256·t … 256·t + 255` of the 64 × 16384 result. The user rows' window is one
  block, the whole array, at every point; so is the translated rows'. The 64 blocks tile the result's columns
  (column i lies in block i / 256), so the result ends holding, at (b, i), the score of user row b against table
  row i. The predictions are a host buffer the region does not touch.
-/
set_option maxRecDepth 16384

noncomputable section

namespace Cert.KernelIdeal.RankValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem offZero : (![0, 0] : Fin 2 → Nat) = fun _ => 0 := funext fun a => by fin_cases a <;> rfl

/-- The printed index maps, decided once over the grid: the two 64 × 128 windows sit at block (0, 0); the table's
    window is at row-block `t`; the result's at column-block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

theorem point_lt (t : Fin cfg0.N) : t.val < 64 := Nat.lt_of_lt_of_le t.isLt (Nat.le_of_eq N_0)

/-- The table row that entry q of point `t`'s block is. -/
def rowAt (t : Fin cfg0.N) (q : Fin 256) : Fin 16384 := ⟨t.val * 256 + q.val, by have := point_lt t; have := q.isLt; omega⟩

/-! ## The three input buffers, read at an entry -/

theorem users_blk (c : Dev nD) (t : Fin cfg0.N) (p : Fin 64) (k : Fin 128) :
    iblk m c 0 t (ix2 p k) = V m c main_v6 (ix2 p k) := by
  obtain ⟨e0, e1, -⟩ := idx_facts t
  show V m c main_v6 (((cfg0.win 0).blk t).view.emb (ix2 p k)) = V m c main_v6 (ix2 p k)
  refine congrArg (V m c main_v6) (funext fun a => Fin.ext ?_)
  match a with
  | ⟨0, _⟩ => show win0_0.index t (0 : Fin 2) * 64 + 1 * p.val = p.val; rw [e0]; omega
  | ⟨1, _⟩ => show win0_0.index t (1 : Fin 2) * 128 + 1 * k.val = k.val; rw [e1]; omega

theorem usersPlusBuy_blk (c : Dev nD) (t : Fin cfg0.N) (p : Fin 64) (k : Fin 128) :
    iblk m c 1 t (ix2 p k) = V m c main_v33 (ix2 p k) := by
  obtain ⟨-, -, e2, e3, -⟩ := idx_facts t
  show V m c main_v33 (((cfg0.win 1).blk t).view.emb (ix2 p k)) = V m c main_v33 (ix2 p k)
  refine congrArg (V m c main_v33) (funext fun a => Fin.ext ?_)
  match a with
  | ⟨0, _⟩ => show win0_1.index t (0 : Fin 2) * 64 + 1 * p.val = p.val; rw [e2]; omega
  | ⟨1, _⟩ => show win0_1.index t (1 : Fin 2) * 128 + 1 * k.val = k.val; rw [e3]; omega

theorem table_blk (c : Dev nD) (t : Fin cfg0.N) (q : Fin 256) (k : Fin 128) :
    tblk m c t (ix2 q k) = V m c main_arg2 (ix2 (RankSpec.itemRow (rowAt t q)) k) := by
  obtain ⟨-, -, -, -, e4, e5, -⟩ := idx_facts t
  have hmv : win0_2.moved (grid0.coords t) (ix2 q k) = true :=
    (win0_2.moved_iff _ _).mpr fun a => by
      have h := ((ix2 q k : S256x128.Idx) a).isLt
      unfold Window.xsize; rw [uncut t a]; exact h
  unfold tblk Window.fill
  rw [dif_pos hmv]
  show V m c main_arg2 (((cfg0.win 2).blk t).view.emb _) = _
  refine congrArg (V m c main_arg2) (funext fun a => Fin.ext ?_)
  match a with
  | ⟨0, _⟩ => show win0_2.index t (0 : Fin 2) * 256 + 1 * q.val = t.val * 256 + q.val; rw [e4]; omega
  | ⟨1, _⟩ => show win0_2.index t (1 : Fin 2) * 128 + 1 * k.val = k.val; rw [e5]; omega

/-! ## From blocks to the array -/

/-- What point `t` writes back is its block of the whole array of scores. -/
theorem flushed_eq (c : Dev nD) (t : Fin cfg0.N) :
    (dats m 0 c).flushed 3 t
      = ((cfg0.win 3).blk t).view.read (Elt Ideal) (RankSpec.rankOf (V m c main_v6) (V m c main_v33) (V m c main_arg2)) := by
  show (cfg0.win 3).cut (grid0.coords t) ((dats m 0 c).after 3 t) = _
  rw [after0_3]
  unfold scoreBlk
  rw [View.canon_unit_zero offZero]
  simp only [View.ld_unit_zero (S := S64x128) offZero, View.ld_unit_zero (S := S256x128) offZero]
  obtain ⟨-, -, -, -, -, -, e6, e7⟩ := idx_facts t
  funext j
  obtain ⟨p, q, rfl⟩ : ∃ (p : Fin 64) (q : Fin 256), j = ix2 p q := ⟨j 0, j 1, eq_ix2 (n0 := 64) (n1 := 256) j⟩
  have hemb : ((cfg0.win 3).blk t).view.emb (ix2 p q) = ix2 p (rowAt t q) := funext fun a => Fin.ext (by
    match a with
    | ⟨0, _⟩ => show win0_3.index t (0 : Fin 2) * 64 + 1 * p.val = p.val; rw [e6]; omega
    | ⟨1, _⟩ => show win0_3.index t (1 : Fin 2) * 256 + 1 * q.val = t.val * 256 + q.val; rw [e7]; omega)
  show k0_pay1 (F := Ideal) (iblk m c 0 t) (iblk m c 1 t) (tblk m c t) (ix2 p q)
    = RankSpec.rankOf (V m c main_v6) (V m c main_v33) (V m c main_arg2) (((cfg0.win 3).blk t).view.emb (ix2 p q))
  rw [hemb, RankSpec.rankOf_apply]
  refine (pay_apply _ _ _ p q).trans ?_
  simp only [users_blk, usersPlusBuy_blk, table_blk]

/-- An index of the result lies in point `t`'s block iff each coordinate is in the block's range. -/
theorem mem_blk (t : Fin cfg0.N) (i : S64x16384.Idx) :
    i ∈ ((cfg0.win 3).blk t).view.set ↔ ∀ a : Fin 2, win0_3.index t a * S64x256.size a ≤ (i a).val ∧ (i a).val < win0_3.index t a * S64x256.size a + S64x256.size a := by
  show i ∈ ((View.whole main_v34).slice (win0_3.rect t)).set ↔ _
  rw [View.set_slice_whole, Rect.mem_set_unit]
  exact Iff.rfl

/-- Column i of the result lies in the block of point i / 256. -/
theorem cover (i : S64x16384.Idx) : ∃ t : Fin cfg0.N, (cfg0.win 3).flush t = true ∧ i ∈ ((cfg0.win 3).blk t).view.set := by
  have h0 : (i 0).val < 64 := (i 0).isLt
  have h1 : (i 1).val < 16384 := (i 1).isLt
  obtain ⟨t, ht⟩ : ∃ t : Fin cfg0.N, t.val = (i 1).val / 256 :=
    ⟨⟨(i 1).val / 256, by rw [show cfg0.N = 64 from N_0]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [e6]; omega
  | ⟨1, _⟩ => show win0_3.index t (1 : Fin 2) * 256 ≤ (i 1).val ∧ (i 1).val < win0_3.index t (1 : Fin 2) * 256 + 256; rw [e7, ht]; omega

/-- The result array after the run: every user row against every item. -/
theorem final (c : Dev nD) :
    (dats m 0 c).arrAt 3 cfg0.N = RankSpec.rankOf (V m c main_v6) (V m c main_v33) (V m c main_arg2) :=
  (dats m 0 c).arrAt_eq_of_cover 3 _ (fun t _ => flushed_eq m c t) cover

/-! ## The run, read at the arguments -/

/-- The "buy" row repeated over the 64 user rows reads, at (b, k), its coordinate k. -/
theorem buyRows_apply (x3 : (⟨Cert.ReferenceIdeal.S16x128, .f32⟩ : BufTy).Contents (Elt Ideal)) (j : (⟨2, ![64, 128]⟩ : Shape).Idx) :
    Cert.ReferenceIdeal.Read.val_main_v20 (F := Ideal) x3 j
      = Cert.ReferenceIdeal.Read.val_main_v15 (F := Ideal) x3 (ix1 ⟨(j 1).val, idx2_lt1 j⟩) := by
  rw [Cert.ReferenceIdeal.Read.val_main_v20_apply, Cert.ReferenceIdeal.Read.val_main_v19_apply]
  exact congrArg _ (funext fun a => Fin.ext (by match a with | ⟨0, _⟩ => rfl))

/-- Scoring against rows translated beforehand, as the host translates them before the call, is scoring with the
    translation done entry by entry. -/
theorem rankOf_translated (U W : FVec Ideal ⟨2, ![64, 128]⟩ .f32) (B : (⟨1, ![128]⟩ : Shape).Idx → EReal)
    (E : (⟨2, ![100000, 128]⟩ : Shape).Idx → EReal) (hW : ∀ j, W j = B (ix1 ⟨(j 1).val, idx2_lt1 j⟩)) :
    RankSpec.rankOf U (addf U W) E = RankSpec.rankAll U B E := by
  unfold RankSpec.rankAll
  refine congrArg (fun UB => RankSpec.rankOf U UB E) (funext fun j => ?_)
  show U j + W j = _
  rw [hW j]

/-- Every weakly fair execution of the kernel program terminates with the predictions at the small head's function
    of the arguments, the ranking result at every user row scored against every item, and the arguments unchanged. -/
theorem run : θ_run defs (onTc (τ := τ) (main (F := Ideal))) ⟨m, fun _ => 0, ρ⟩ fun r => ∀ c : Dev nD,
      r.2.mem ((c.tc : Thread nD τ).loc main_v30)
        = Cert.ReferenceIdeal.Read.val_main_v31 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v34)
        = RankSpec.rankAll (Cert.ReferenceIdeal.Read.val_main_v6 (F := Ideal) (m ((c.tc : Thread nD τ).loc main_arg0)) (m ((c.tc : Thread nD τ).loc main_arg2)))
            (Cert.ReferenceIdeal.Read.val_main_v15 (F := Ideal) (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v30 (Pipeline.mem_restRefs_of main_v30 (by decide) (by decide))).trans (HostValues.predict_eq m c),
     (((h c).1 3).trans (final m c)).trans (by
        rw [HostValues.users_eq m c, HostValues.usersPlusBuy_eq m c, V_main_arg2 m c]
        exact rankOf_translated _ _ _ _ (buyRows_apply _)),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c)⟩)
    (run_main m ρ)

end Cert.KernelIdeal.RankValue

end
-- ==== Proof.RankReference.lean ====
import proofs.«148714_j35450660061923_1_alg».proof.Proof.Gen.ReferenceIdeal.Read
import proofs.«148714_j35450660061923_1_alg».proof.Proof.RankSpec
import Idealize.ShloMosaic.Lib.IdealHost
/-
  The reference's ranking result is `rankAll`.

  The reference slices the first 16384 rows off the entity table, lays the translated user rows (64 × 1 × 128) and
  the item rows (1 × 16384 × 128) out along each other's axis, sums |difference| over the last axis, adds the
  64 × 16384 product of the user rows with the item rows contracted over the 128 coordinates, and applies
  `1 / (1 + e^(−x))`: entry (b, i) is the ranking score of user row b against table row i. Read one operation at a
  time, every index map composes to the obvious coordinates.
-/

open scoped BigOperators

noncomputable section

namespace Cert.ReferenceIdeal.RankValue

open Cert.ReferenceIdeal Cert.ReferenceIdeal.Read Idealize.ShloMosaic Idealize.ShloMosaic.ValueIdx

/-- The user-side entry of the difference at (b, i, k) is read at (b, k) of the gathered rows, -/
theorem userIdx (b : Fin 64) (i : Fin 16384) (k : Fin 128) :
    idx_main_v33 (idx_main_v38 (idx_main_v42 (ix2 b i) k)) = ix2 b k :=
  funext fun a => Fin.ext (by match a with | ⟨0, _⟩ => rfl | ⟨1, _⟩ => rfl)

/-- its translation at coordinate k of the "buy" row, -/
theorem buyIdx (b : Fin 64) (i : Fin 16384) (k : Fin 128) :
    idx_main_v34 (idx_main_v35 (idx_main_v38 (idx_main_v42 (ix2 b i) k))) = ix1 k :=
  funext fun a => Fin.ext (by match a with | ⟨0, _⟩ => rfl)

/-- and the item-side entry at (i, k) of the entity table. -/
theorem itemIdx (b : Fin 64) (i : Fin 16384) (k : Fin 128) :
    idx_main_v16 (idx_main_v37 (idx_main_v39 (idx_main_v42 (ix2 b i) k))) = ix2 (RankSpec.itemRow i) k :=
  funext fun a => Fin.ext (by match a with | ⟨0, _⟩ => rfl | ⟨1, _⟩ => rfl)

/-- The product's two operands at (b, i), term k: (b, k) of the gathered rows and (i, k) of the table. -/
theorem dotLeftIdx (b : Fin 64) (i : Fin 16384) (k : Fin 128) : lidx_main_v32 (ix2 b i) k = ix2 b k :=
  funext fun a => Fin.ext (by match a with | ⟨0, _⟩ => rfl | ⟨1, _⟩ => rfl)
theorem dotRightIdx (b : Fin 64) (i : Fin 16384) (k : Fin 128) :
    idx_main_v16 (ridx_main_v32 (ix2 b i) k) = ix2 (RankSpec.itemRow i) k :=
  funext fun a => Fin.ext (by match a with | ⟨0, _⟩ => rfl | ⟨1, _⟩ => rfl)

/-- The reference's ranking result, as a function of the arguments, is every user row scored against every item. -/
theorem ranking_eq (x0 : (⟨S64, .i32⟩ : BufTy).Contents (Elt Ideal)) (x2 : (⟨S100000x128, .f32⟩ : BufTy).Contents (Elt Ideal))
    (x3 : (⟨S16x128, .f32⟩ : BufTy).Contents (Elt Ideal)) :
    val_main_v49 (F := Ideal) x0 x2 x3
      = RankSpec.rankAll (val_main_v6 (F := Ideal) x0 x2) (val_main_v15 (F := Ideal) x3) x2 := by
  funext j
  obtain ⟨b, i, rfl⟩ : ∃ (b : Fin 64) (i : Fin 16384), j = ix2 b i := ⟨j 0, j 1, eq_ix2 j⟩
  rw [RankSpec.rankAll_apply]
  rw [val_main_v49_apply, val_main_v48_apply, val_main_cst_8_apply, val_main_v47_apply, val_main_v46_apply, val_main_cst_7_apply,
    val_main_v45_apply, val_main_v44_apply, val_main_v43_apply, val_main_v42_apply, val_main_v32_apply, val_main_cst_6_apply]
  unfold RankSpec.score Ideal.logistic
  simp only [val_main_v41_apply, val_main_v40_apply, val_main_v38_apply, val_main_v36_apply, val_main_v33_apply,
    val_main_v35_apply, val_main_v34_apply, val_main_v39_apply, val_main_v37_apply, val_main_v16_apply,
    userIdx, buyIdx, itemIdx, dotLeftIdx, dotRightIdx,
    Ideal.hostDivf_def, Ideal.addf_def, Ideal.subf_def, Ideal.hostUnary_exp_def, Ideal.hostNegf_def, Ideal.negf_def,
    Ideal.hostAbsf_def, Ideal.absf_def, Ideal.ofBits_def, Ideal.ofBits_one_f32, Ideal.ofBits_zero_f32, zero_add]

end Cert.ReferenceIdeal.RankValue

end
-- ==== Proof.lean ====
/-
  The ranking kernel of a knowledge-graph recommender against its jnp reference, over the extended reals.

  Both programs gather the 64 users' and the 64 items' rows of the 100000 × 128 entity table, take the "buy" row of the
  relation table, and compute (i) 64 predictions, logistic(‖u + buy − item‖₁ + ⟨u, item⟩), by the same host operations
  in the same order, and (ii) the 64 × 16384 array of ranking scores of every user against every one of the first
  16384 table rows, logistic(Σ_k |u_k + buy_k − e_k| + Σ_k u_k·e_k). The kernel computes (ii) in a pallas_call over 64
  grid points, 256 table rows at a time: the L1 distance as a lane sum over a 64 × 256 × 128 difference, the inner
  products as a bf16 matrix product with the transposed block (rounding is the identity on the extended reals), and
  the logistic function as one operation; the reference computes it as whole-array host operations, with the
  logistic function spelt 1 / (1 + e^(−x)), which is its definition here. Entry by entry the two are the same
  expression, so no property of the inputs is used beyond what the statement gives.

  The frames of the two kernel programs come from one body proof (three whole loads, the stored value, one whole
  store) read at the word-level and at the ideal float family; the reference's frame is its run with the results
  dropped; the idealization rewrote nothing.
-/
import proofs.«148714_j35450660061923_1_alg».proof.Defs
import proofs.«148714_j35450660061923_1_alg».proof.Proof.Gen.Kernel
import proofs.«148714_j35450660061923_1_alg».proof.Proof.Gen.KernelIdeal
import proofs.«148714_j35450660061923_1_alg».proof.Proof.Gen.ReferenceIdeal
import proofs.«148714_j35450660061923_1_alg».proof.Proof.Gen.ReferenceIdeal.Run
import proofs.«148714_j35450660061923_1_alg».proof.Proof.Gen.ReferenceIdeal.Read
import proofs.«148714_j35450660061923_1_alg».proof.Proof.Gen.Pre_finite_inputs
import proofs.«148714_j35450660061923_1_alg».proof.Proof.BodyBits
import proofs.«148714_j35450660061923_1_alg».proof.Proof.BodyIdeal
import proofs.«148714_j35450660061923_1_alg».proof.Proof.RankKernel
import proofs.«148714_j35450660061923_1_alg».proof.Proof.RankReference
import Idealize.ShloMosaic.Adequacy
import Idealize.ShloMosaic.Init

noncomputable section

namespace Cert.Proof

open Idealize.ShloMosaic Idealize.SL.Sem

/-- The word-level kernel program runs and keeps its arguments: the body proof at the bit-exact family. -/
theorem frame_kernel : Cert.frame_Kernel := fun m ρ _ => Cert.Kernel.Body.frame (F := Bits) m ρ

/-- The idealized kernel program likewise: the same body proof at the ideal family. -/
theorem frame_kernelIdeal : Cert.frame_KernelIdeal := fun m ρ _ => Cert.KernelIdeal.Body.frame (F := Ideal) m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the predictions at the small head's function of the
    arguments and the ranking result at every user row scored against every item. -/
theorem algebraic : Cert.algebraic_KernelIdeal_ReferenceIdeal := by
  intro m ρ m' ρ' _ hagree
  refine ⟨_, _, Cert.KernelIdeal.RankValue.run m ρ, ?_⟩
  refine (θ_run Cert.ReferenceIdeal.defs _ _).mono (fun r h c => ?_) (Cert.ReferenceIdeal.Value.run (F := Ideal) m' ρ')
  obtain ⟨h31, h49, ha⟩ := h c
  obtain ⟨e0, e1, e2, e3⟩ := hagree c
  refine ⟨?_, ?_, ha⟩
  · refine (h31.trans (Cert.ReferenceIdeal.Read.val_main_v31_eq _ _ _ _)).trans ?_
    rw [e0, e1, e2, e3]
  · refine ((h49.trans (Cert.ReferenceIdeal.Read.val_main_v49_eq _ _ _)).trans (Cert.ReferenceIdeal.RankValue.ranking_eq _ _ _)).trans ?_
    rw [e0, e2, e3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
